-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.MatrixAssoc.lean ====
/-
  The mathematics both programs compute, and the one law that joins them.

  A graph-convolution layer: with feature matrix `x` (10000 × 128), adjacency `adj` (10000 × 10000), weight
  `W` (128 × 128, stored output-major: row `c` holds output feature `c`'s coefficients) and `bias` (128),

    out[r, c] = ∑ₙ adj[r, n] · (∑_d x[n, d] · W[c, d]) + bias[c]          (project the features, then aggregate)
              = ∑_d (∑ₙ adj[r, n] · x[n, d]) · W[c, d] + bias[c]          (aggregate the features, then project)

  The two readings are the two bracketings of the triple product adj · x · Wᵀ. On the extended reals multiplication
  does not distribute over addition at the infinities, so the bracketings agree only where every entry of `adj`, `x`
  and `W` is a real number: there both are the real double sum ∑ₙ ∑_d adj[r, n] · x[n, d] · W[c, d].
  The bias is added last on both sides and needs nothing.
-/
import Idealize.ShloMosaic.Lib.ValueIdx

noncomputable section

open scoped BigOperators

namespace Cert.GcnLayer

open Idealize.ShloMosaic Idealize.ShloMosaic.ValueIdx

/-! ## The coercion of the reals into the extended reals and finite sums -/

/-- The coercion `ℝ → EReal` is additive, so it commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two bracketings of a triple product, over finite index types -/

/-- Over the reals: `∑_d (∑ₙ aₙ · xₙ_d) · w_d = ∑ₙ aₙ · (∑_d xₙ_d · w_d)`; both are the double sum of the
    triple products (distribute on each side, exchange the two sums, reassociate the product). -/
theorem assoc_real {ι κ : Type*} [Fintype ι] [Fintype κ] (a : ι → ℝ) (x : ι → κ → ℝ) (w : κ → ℝ) :
    ∑ d, (∑ n, a n * x n d) * w d = ∑ n, a n * ∑ d, x n d * w d := by
  simp only [Finset.sum_mul, Finset.mul_sum]
  rw [Finset.sum_comm]
  exact Finset.sum_congr rfl fun n _ => Finset.sum_congr rfl fun d _ => mul_assoc _ _ _

/-- The same on the extended reals, where every factor is (the coercion of) a real number: the coercion is pushed
    outwards through the products and the sums, and the real law applies underneath it. -/
theorem assoc_ereal {ι κ : Type*} [Fintype ι] [Fintype κ] (a : ι → EReal) (x : ι → κ → EReal) (w : κ → EReal)
    (ha : ∀ n, ∃ r : ℝ, a n = r) (hx : ∀ n d, ∃ r : ℝ, x n d = r) (hw : ∀ d, ∃ r : ℝ, w d = r) :
    ∑ d, (∑ n, a n * x n d) * w d = ∑ n, a n * ∑ d, x n d * w d := by
  choose a' ha using ha
  choose x' hx using hx
  choose w' hw using hw
  obtain rfl : a = fun n => ((a' n : ℝ) : EReal) := funext ha
  obtain rfl : x = fun n d => ((x' n d : ℝ) : EReal) := funext fun n => funext fun d => hx n d
  obtain rfl : w = fun d => ((w' d : ℝ) : EReal) := funext hw
  simp only [← EReal.coe_mul, ← coe_sum]
  exact congrArg _ (assoc_real a' x' w')

/-! ## The layer's result, in its two readings, over the arrays' literal shapes -/

/-- Entry `(r, c)` of the layer's result read as "aggregate, then project":
    `∑_d (∑ₙ adj[r, n] · x[n, d]) · W[c, d] + bias[c]`. -/
def aggregateThenProject (x : (⟨2, ![10000, 128]⟩ : Shape).Idx → EReal) (adj : (⟨2, ![10000, 10000]⟩ : Shape).Idx → EReal)
    (W : (⟨2, ![128, 128]⟩ : Shape).Idx → EReal) (bias : (⟨1, ![128]⟩ : Shape).Idx → EReal) (r : Fin 10000) (c : Fin 128) : EReal :=
  (∑ d : Fin 128, (∑ n : Fin 10000, adj (ix2 r n) * x (ix2 n d)) * W (ix2 c d)) + bias (ix1 c)

/-- Entry `(r, c)` read as "project, then aggregate": `∑ₙ adj[r, n] · (∑_d x[n, d] · W[c, d]) + bias[c]`. -/
def projectThenAggregate (x : (⟨2, ![10000, 128]⟩ : Shape).Idx → EReal) (adj : (⟨2, ![10000, 10000]⟩ : Shape).Idx → EReal)
    (W : (⟨2, ![128, 128]⟩ : Shape).Idx → EReal) (bias : (⟨1, ![128]⟩ : Shape).Idx → EReal) (r : Fin 10000) (c : Fin 128) : EReal :=
  (∑ n : Fin 10000, adj (ix2 r n) * ∑ d : Fin 128, x (ix2 n d) * W (ix2 c d)) + bias (ix1 c)

/-- Where every entry of `x`, `adj` and `W` is a real number the two readings are one value, whatever the bias. -/
theorem aggregateThenProject_eq_projectThenAggregate (x : (⟨2, ![10000, 128]⟩ : Shape).Idx → EReal)
    (adj : (⟨2, ![10000, 10000]⟩ : Shape).Idx → EReal) (W : (⟨2, ![128, 128]⟩ : Shape).Idx → EReal)
    (bias : (⟨1, ![128]⟩ : Shape).Idx → EReal)
    (hx : ∀ i, ∃ r : ℝ, x i = r) (hadj : ∀ i, ∃ r : ℝ, adj i = r) (hW : ∀ i, ∃ r : ℝ, W i = r) (r : Fin 10000) (c : Fin 128) :
    aggregateThenProject x adj W bias r c = projectThenAggregate x adj W bias r c := by
  unfold aggregateThenProject projectThenAggregate
  exact congrArg (· + bias (ix1 c))
    (assoc_ereal (fun n : Fin 10000 => adj (ix2 r n)) (fun (n : Fin 10000) (d : Fin 128) => x (ix2 n d)) (fun d : Fin 128 => W (ix2 c d))
      (fun n => hadj _) (fun n d => hx _) (fun d => hW _))

end Cert.GcnLayer

end
-- ==== Proof.FiniteEntries.lean ====
/-
  What the precondition says of the arrays' entries.

  The precondition is the conjunction, over the four argument arrays, of "every entry's absolute value is below +∞"
  (each a reduction by `and` of the entrywise comparison `|v| < +∞` to one truth value). On the extended reals
  `|v| = max v (−v)`, which is `+∞` exactly at the two infinities: so the comparison holds at an entry exactly when the
  entry is (the coercion of) a real number. The precondition being all ones, every entry of every argument is real.
-/
import proofs.«126582_g7481833030311_retrytranche1_1591_13_alg».proof.Proof.Gen.Pre_finite_inputs
import Idealize.ShloMosaic.Lib.ReduceAll
import Idealize.ShloMosaic.Lib.ValueIdx

noncomputable section

namespace Cert.GcnLayer.Finite

open Idealize.ShloMosaic Cert.Pre_finite_inputs

/-- The scalar shape has one index. -/
instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max v (−v)` compares below `+∞` is a real number: at `+∞` the maximum is
    `+∞` itself, at `−∞` it is `−(−∞) = +∞`. -/
theorem real_of_abs_lt_inf (v : EReal) (h : Ideal.cmp .olt (max v (-v)) (Ideal.ofBits .f32 0x7F800000#32) = 1#1) :
    ∃ r : ℝ, v = r := by
  rw [ofBits_inf] at h
  have hlt : max v (-v) < ⊤ := by
    by_contra hn
    simp [Ideal.cmp, hn] at h
  induction v using EReal.rec with
  | bot => simp at hlt
  | top => simp at hlt
  | coe r => exact ⟨r, rfl⟩

/-- One entry of the printed comparison array `|v| < +∞` being one says that entry of `v` is real. -/
theorem entry_real {s : Shape} (v : FVec Ideal s .f32) (hb : S_.BroadcastsInDim s (![] : Fin 0 → Fin s.rank)) (i : s.Idx)
    (e : cmpf .olt (Host.absf v) (broadcastInDim s ![] hb (constant (F := Ideal) S_ .f32 0x7F800000#32)) i = 1#1) :
    ∃ r : ℝ, v i = r :=
  real_of_abs_lt_inf (v i) e

/-- Under the precondition every entry of `x`, `adj`, `W` and `bias` is a real number. -/
theorem entries_real [Facts] (x : FVec Ideal S10000x128 .f32) (adj : FVec Ideal S10000x10000 .f32) (W : FVec Ideal S128x128 .f32)
    (bias : FVec Ideal S128 .f32) (h : fn (F := Ideal) x adj W bias = fun _ => 1#1) :
    (∀ i, ∃ r : ℝ, x i = r) ∧ (∀ i, ∃ r : ℝ, adj i = r) ∧ (∀ i, ∃ r : ℝ, W i = r) ∧ (∀ i, ∃ r : ℝ, bias i = r) := by
  have h0 := congrFun h ValueIdx.ix0
  dsimp only [fn, fn_part1, andi] at h0
  obtain ⟨h012, h3⟩ := IntOp.andi_eq_one.1 h0
  obtain ⟨h01, h2⟩ := IntOp.andi_eq_one.1 h012
  obtain ⟨hx, hadj⟩ := IntOp.andi_eq_one.1 h01
  exact ⟨fun i => entry_real x _ i (Host.reduce_andi_all _ _ _ _ _ hx i),
    fun i => entry_real adj _ i (Host.reduce_andi_all _ _ _ _ _ hadj i),
    fun i => entry_real W _ i (Host.reduce_andi_all _ _ _ _ _ h2 i),
    fun i => entry_real bias _ i (Host.reduce_andi_all _ _ _ _ _ h3 i)⟩

end Cert.GcnLayer.Finite

end
-- ==== Proof.ReferenceValue.lean ====
/-
  The reference's result, entry by entry.

  The reference transposes `W`, multiplies `x` by it (`support[n, c] = ∑_d x[n, d] · Wᵀ[d, c]`, and `Wᵀ[d, c] = W[c, d]`),
  multiplies `adj` by that (`∑ₙ adj[r, n] · support[n, c]`), and adds the bias broadcast along the rows. Read at entry
  `(r, c)` through the two products' sums, the transposition's index swap and the two broadcasts, that is the layer's
  result in its "project, then aggregate" reading.
-/
import proofs.«126582_g7481833030311_retrytranche1_1591_13_alg».proof.Proof.Gen.ReferenceIdeal.Read
import proofs.«126582_g7481833030311_retrytranche1_1591_13_alg».proof.Proof.MatrixAssoc

noncomputable section

open scoped BigOperators

namespace Cert.GcnLayer.Reference

open Cert.ReferenceIdeal Cert.ReferenceIdeal.Read Idealize.ShloMosaic Idealize.ShloMosaic.ValueIdx Cert.GcnLayer

/-- Entry `(r, c)` of the reference's last stage is `∑ₙ adj[r, n] · (∑_d x[n, d] · W[c, d]) + bias[c]`. -/
theorem result_entry (x : (⟨S10000x128, .f32⟩ : BufTy).Contents (Elt Ideal)) (adj : (⟨S10000x10000, .f32⟩ : BufTy).Contents (Elt Ideal))
    (W : (⟨S128x128, .f32⟩ : BufTy).Contents (Elt Ideal)) (bias : (⟨S128, .f32⟩ : BufTy).Contents (Elt Ideal)) (r : Fin 10000) (c : Fin 128) :
    val_main_v5 (F := Ideal) x adj W bias (ix2 r c) = projectThenAggregate x adj W bias r c := by
  -- the second product's operand indices at output (r, c) and contraction index n are (r, n) and (n, c)
  have hadj : ∀ n : Fin 10000, lidx_main_v2 (ix2 r c) n = ix2 r n := fun n =>
    funext fun a => Fin.ext (by match a with | ⟨0, _⟩ => rfl | ⟨1, _⟩ => rfl)
  have hsup : ∀ n : Fin 10000, ridx_main_v2 (ix2 r c) n = ix2 n c := fun n =>
    funext fun a => Fin.ext (by match a with | ⟨0, _⟩ => rfl | ⟨1, _⟩ => rfl)
  -- the first product's at output (n, c) and contraction index d are (n, d) and, through the transposition, (c, d)
  have hx : ∀ (n : Fin 10000) (d : Fin 128), lidx_main_v1 (ix2 n c) d = ix2 n d := fun n d =>
    funext fun a => Fin.ext (by match a with | ⟨0, _⟩ => rfl | ⟨1, _⟩ => rfl)
  have hW : ∀ (n : Fin 10000) (d : Fin 128), idx_main_v0 (ridx_main_v1 (ix2 n c) d) = ix2 c d := fun n d =>
    funext fun a => Fin.ext (by match a with | ⟨0, _⟩ => rfl | ⟨1, _⟩ => rfl)
  -- the bias is read at the column
  have hb : idx_main_v3 (idx_main_v4 (ix2 r c)) = ix1 c :=
    funext fun a => Fin.ext (by match a with | ⟨0, _⟩ => rfl)
  rw [val_main_v5_apply, val_main_v2_apply, val_main_v4_apply, val_main_v3_apply]
  simp only [hadj, hsup, val_main_v1_apply, val_main_v0_apply, hx, hW, hb, Ideal.addf_def]
  rfl

/-- So the reference's last stage is, as a whole array, the "project, then aggregate" reading of the layer. -/
theorem result_eq (x : (⟨S10000x128, .f32⟩ : BufTy).Contents (Elt Ideal)) (adj : (⟨S10000x10000, .f32⟩ : BufTy).Contents (Elt Ideal))
    (W : (⟨S128x128, .f32⟩ : BufTy).Contents (Elt Ideal)) (bias : (⟨S128, .f32⟩ : BufTy).Contents (Elt Ideal)) :
    val_main_v5 (F := Ideal) x adj W bias = fun i => projectThenAggregate x adj W bias (i 0) (i 1) := by
  funext i
  obtain ⟨r, c, rfl⟩ : ∃ (r : Fin 10000) (c : Fin 128), i = ix2 r c := ⟨i 0, i 1, eq_ix2 i⟩
  exact result_entry x adj W bias r c

end Cert.GcnLayer.Reference

end
-- ==== Proof.KernelBlock.lean ====
/-
  One grid point of the kernel, entry by entry.

  At a grid point the body holds a 400-row block `a` of the adjacency matrix, the whole feature matrix `x`, the whole
  weight matrix `W` and the bias as a 1 × 128 row `b`. It forms the aggregated block `g = a · x` (a product into a zero
  accumulator: `g[p, d] = ∑ₙ a[p, n] · x[n, d]`), transposes `W`, forms `g · Wᵀ` (again into zero:
  `∑_d g[p, d] · Wᵀ[d, c]`, and `Wᵀ[d, c] = W[c, d]`), and adds the bias row broadcast down the 400 rows. So entry
  `(p, c)` of what it stores is `∑_d (∑ₙ a[p, n] · x[n, d]) · W[c, d] + b[0, c]`.
-/
import proofs.«126582_g7481833030311_retrytranche1_1591_13_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.GcnLayer.Kernel

open Cert.KernelIdeal Cert.KernelIdeal.Gen Idealize.ShloMosaic Idealize.ShloMosaic.ValueIdx

/-! ## The first product: a block of adjacency rows times the features -/

theorem agg_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregated block: `(a · x)[p, d] = ∑ₙ a[p, n] · x[n, d]`, the contraction running over all 10000 nodes. -/
theorem aggregate_entry (a : FVec Ideal S400x10000 .f32) (x : FVec Ideal S10000x128 .f32) (p : Fin 400) (d : Fin 128) :
    matmul dot_S400x10000_S10000x128_S400x128_1_0_0_1_n_n none a x (constant (F := Ideal) S400x128 .f32 0x00000000#32) (ix2 p d)
      = ∑ n : Fin 10000, a (ix2 p n) * x (ix2 n d) := by
  simp only [matmul]
  rw [Ideal.matmul_constant_zero_apply, ← Equiv.sum_comp (contrEquiv1 dot_S400x10000_S10000x128_S400x128_1_0_0_1_n_n 10000 rfl rfl).symm]
  refine Finset.sum_congr rfl fun n _ => ?_
  have hn := contrEquiv1_symm_val dot_S400x10000_S10000x128_S400x128_1_0_0_1_n_n 10000 rfl rfl n
  have el : dot_S400x10000_S10000x128_S400x128_1_0_0_1_n_n.lhsIdx (ix2 p d) ((contrEquiv1 dot_S400x10000_S10000x128_S400x128_1_0_0_1_n_n 10000 rfl rfl).symm n) = ix2 p n := funext fun b => Fin.ext (by
    match b with
    | ⟨0, _⟩ => exact agg_lhs_0 _ _
    | ⟨1, _⟩ => exact (agg_lhs_1 _ _).trans hn)
  have er : dot_S400x10000_S10000x128_S400x128_1_0_0_1_n_n.rhsIdx (ix2 p d) ((contrEquiv1 dot_S400x10000_S10000x128_S400x128_1_0_0_1_n_n 10000 rfl rfl).symm n) = ix2 n d := funext fun b => Fin.ext (by
    match b with
    | ⟨0, _⟩ => exact (agg_rhs_0 _ _).trans hn
    | ⟨1, _⟩ => exact agg_rhs_1 _ _)
  rw [el, er]

/-! ## The second product: the aggregated block times the transposed weights -/

theorem proj_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem proj_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem proj_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem proj_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The projected block: `(g · v)[p, c] = ∑_d g[p, d] · v[d, c]`, the contraction over the 128 input features. -/
theorem project_entry (g : FVec Ideal S400x128 .f32) (v : FVec Ideal S128x128 .f32) (p : Fin 400) (c : Fin 128) :
    matmul dot_S400x128_S128x128_S400x128_1_0_0_1_n_n none g v (constant (F := Ideal) S400x128 .f32 0x00000000#32) (ix2 p c)
      = ∑ d : Fin 128, g (ix2 p d) * v (ix2 d c) := by
  simp only [matmul]
  rw [Ideal.matmul_constant_zero_apply, ← Equiv.sum_comp (contrEquiv1 dot_S400x128_S128x128_S400x128_1_0_0_1_n_n 128 rfl rfl).symm]
  refine Finset.sum_congr rfl fun d _ => ?_
  have hd := contrEquiv1_symm_val dot_S400x128_S128x128_S400x128_1_0_0_1_n_n 128 rfl rfl d
  have el : dot_S400x128_S128x128_S400x128_1_0_0_1_n_n.lhsIdx (ix2 p c) ((contrEquiv1 dot_S400x128_S128x128_S400x128_1_0_0_1_n_n 128 rfl rfl).symm d) = ix2 p d := funext fun b => Fin.ext (by
    match b with
    | ⟨0, _⟩ => exact proj_lhs_0 _ _
    | ⟨1, _⟩ => exact (proj_lhs_1 _ _).trans hd)
  have er : dot_S400x128_S128x128_S400x128_1_0_0_1_n_n.rhsIdx (ix2 p c) ((contrEquiv1 dot_S400x128_S128x128_S400x128_1_0_0_1_n_n 128 rfl rfl).symm d) = ix2 d c := funext fun b => Fin.ext (by
    match b with
    | ⟨0, _⟩ => exact (proj_rhs_0 _ _).trans hd
    | ⟨1, _⟩ => exact proj_rhs_1 _ _)
  rw [el, er]

/-! ## The layout operations -/

/-- The transposed weights: `Wᵀ[d, c] = W[c, d]`. -/
theorem transpose_entry (W : FVec Ideal S128x128 .f32) (h : S128x128.Transposes [1, 0] S128x128) (d c : Fin 128) :
    transpose S128x128 [1, 0] W h (ix2 d c) = W (ix2 c d) :=
  transpose_apply [1, 0] W h (ix2 d c) (ix2 c d) (fun b => match b with
    | ⟨0, _⟩ => rfl
    | ⟨1, _⟩ => rfl)

/-- The bias row broadcast down the block's rows: every row reads the row's entry in the same column. -/
theorem bias_entry (b : FVec Ideal S1x128 .f32) (hc : S1x128.ShapeCasts S1x128) (hb : S1x128.Broadcasts S400x128) (p : Fin 400) (c : Fin 128) :
    broadcastTo S400x128 (shapeCast S1x128 b hc) hb (ix2 p c) = b (ix2 (0 : Fin 1) c) := by
  rw [shapeCast_self]
  exact broadcastTo_apply b hb (ix2 p c) (ix2 (0 : Fin 1) c) (fun a => match a with
    | ⟨0, _⟩ => by show 0 = if (1 : Nat) = 1 then 0 else p.val; rw [if_pos rfl]
    | ⟨1, _⟩ => by show c.val = if (128 : Nat) = 1 then 0 else c.val; rw [if_neg (by decide)])

/-! ## The stored block -/

/-- Entry `(p, c)` of the block the body stores: `∑_d (∑ₙ a[p, n] · x[n, d]) · W[c, d] + b[0, c]`. -/
theorem payload_entry (a : FVec Ideal S400x10000 .f32) (x : FVec Ideal S10000x128 .f32) (W : FVec Ideal S128x128 .f32)
    (b : FVec Ideal S1x128 .f32) (p : Fin 400) (c : Fin 128) :
    k0_pay1 (F := Ideal) a x W b (ix2 p c)
      = (∑ d : Fin 128, (∑ n : Fin 10000, a (ix2 p n) * x (ix2 n d)) * W (ix2 c d)) + b (ix2 (0 : Fin 1) c) := by
  unfold k0_pay1
  dsimp only
  rw [addf_apply, project_entry, bias_entry]
  refine congrArg (· + b (ix2 (0 : Fin 1) c)) (Finset.sum_congr rfl fun d _ => ?_)
  rw [aggregate_entry, transpose_entry]

end Cert.GcnLayer.Kernel

end
-- ==== Proof.KernelArray.lean ====
/-
  From the grid points to the whole result array.

  The grid has 25 points. Point `t` is given rows `400 t … 400 t + 399` of the adjacency matrix (all 10000 columns),
  the whole feature matrix, the whole weight matrix and the bias laid out as a 1 × 128 row, and writes back rows
  `400 t … 400 t + 399` of the result. By the block's entry formula, entry `(p, c)` of what point `t` writes is the
  layer's "aggregate, then project" value at row `400 t + p` and column `c`; the 25 row blocks tile the 10000 rows
  (row `r` lies in block `r / 400`), so after the run the result array is that value at every entry.
-/
import proofs.«126582_g7481833030311_retrytranche1_1591_13_alg».proof.Proof.Gen.KernelIdeal.Value
import proofs.«126582_g7481833030311_retrytranche1_1591_13_alg».proof.Proof.MatrixAssoc
import proofs.«126582_g7481833030311_retrytranche1_1591_13_alg».proof.Proof.KernelBlock
import Idealize.ShloMosaic.Lib.StableHlo.Run

noncomputable section

open scoped BigOperators

open Idealize.ShloMosaic Idealize.ShloMosaic.TcCoe Idealize.SL.Sem
open Idealize.ShloMosaic.Pipeline (Dat)

namespace Cert.GcnLayer.Kernel

open Cert.KernelIdeal Cert.KernelIdeal.Gen Cert.KernelIdeal.Value Idealize.ShloMosaic.ValueIdx Idealize.ShloMosaic.StableHlo Cert.GcnLayer

variable (m : (ℓ : Loc nD τ sig) → Buf (Elt Ideal) ℓ) (ρ : Dev nD → PrngReg)

theorem zero_offsets : (![0, 0] : Fin 2 → Nat) = fun _ => 0 := funext fun a => by fin_cases a <;> rfl

/-- The layer's result as one array: entry `i` is the "aggregate, then project" value at `i`'s row and column. -/
abbrev layer (c : Dev nD) : S10000x128.Idx → EReal := fun i =>
  aggregateThenProject (m ((c : Thread nD τ).loc main_arg0)) (m ((c : Thread nD τ).loc main_arg1))
    (m ((c : Thread nD τ).loc main_arg2)) (m ((c : Thread nD τ).loc main_arg3)) (i 0) (i 1)

/-! ## Where each window's block sits -/

/-- The block indices, decided over the 25 points: the adjacency and result windows are at row block `t`, column
    block 0; the three resident windows stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency window's block at point `t` is rows `400 t …` of the adjacency matrix. -/
theorem adj_block (c : Dev nD) (t : Fin cfg0.N) (p : Fin 400) (n : Fin 10000) (r : Fin 10000) (hr : r.val = 400 * t.val + p.val) :
    (iblk m c 0 t : FVec Ideal S400x10000 .f32) (ix2 p n) = (m ((c : Thread nD τ).loc main_arg1) : S10000x10000.Idx → EReal) (ix2 r n) := by
  obtain ⟨e0, e1, -⟩ := block_indices t
  unfold iblk
  rw [View.read_apply]
  show V m c main_arg1 _ = _
  rw [V_main_arg1]
  congr 1
  funext a
  apply Fin.ext
  match a with
  | ⟨0, _⟩ => show win0_0.index t (0 : Fin 2) * 400 + 1 * p.val = r.val; rw [e0, hr]; omega
  | ⟨1, _⟩ => show win0_0.index t (1 : Fin 2) * 10000 + 1 * n.val = n.val; rw [e1]; omega

/-- The feature window's block is the whole feature matrix at every point. -/
theorem x_block (c : Dev nD) (t : Fin cfg0.N) (n : Fin 10000) (d : Fin 128) :
    (iblk m c 1 t : FVec Ideal S10000x128 .f32) (ix2 n d) = (m ((c : Thread nD τ).loc main_arg0) : S10000x128.Idx → EReal) (ix2 n d) := by
  obtain ⟨-, -, e0, e1, -⟩ := block_indices t
  unfold iblk
  rw [View.read_apply]
  show V m c main_arg0 _ = _
  rw [V_main_arg0]
  congr 1
  funext a
  apply Fin.ext
  match a with
  | ⟨0, _⟩ => show win0_1.index t (0 : Fin 2) * 10000 + 1 * n.val = n.val; rw [e0]; omega
  | ⟨1, _⟩ => show win0_1.index t (1 : Fin 2) * 128 + 1 * d.val = d.val; rw [e1]; omega

/-- The weight window's block is the whole weight matrix at every point. -/
theorem w_block (c : Dev nD) (t : Fin cfg0.N) (o : Fin 128) (d : Fin 128) :
    (iblk m c 2 t : FVec Ideal S128x128 .f32) (ix2 o d) = (m ((c : Thread nD τ).loc main_arg2) : S128x128.Idx → EReal) (ix2 o d) := by
  obtain ⟨-, -, -, -, e0, e1, -⟩ := block_indices t
  unfold iblk
  rw [View.read_apply]
  show V m c main_arg2 _ = _
  rw [V_main_arg2]
  congr 1
  funext a
  apply Fin.ext
  match a with
  | ⟨0, _⟩ => show win0_2.index t (0 : Fin 2) * 128 + 1 * o.val = o.val; rw [e0]; omega
  | ⟨1, _⟩ => show win0_2.index t (1 : Fin 2) * 128 + 1 * d.val = d.val; rw [e1]; omega

/-- Before the region the bias is laid out as a 1 × 128 row: entry `(0, q)` of the row is entry `q` of the bias. -/
theorem bias_row (c : Dev nD) (q : Fin 128) :
    (V m c main_v0 : S1x128.Idx → EReal) (ix2 (0 : Fin 1) q) = (m ((c : Thread nD τ).loc main_arg3) : S128.Idx → EReal) (ix1 q) := by
  have e : (V m c main_v0 : S1x128.Idx → EReal)
      = shapeCast S1x128 (m ((c : Thread nD τ).loc main_arg3) : S128.Idx → EReal) shapeCasts_S128_S1x128 := by
    dsimp only [V, hostOps0]; after_results; rfl
  rw [e]
  refine shapeCast_apply _ _ (ix2 (0 : Fin 1) q) (ix1 q) ?_
  rw [Shape.rowMajor_val_one, Shape.rowMajor_val_two]
  show q.val = 0 * 128 + q.val
  omega

/-- The bias window's block is that row at every point. -/
theorem bias_block (c : Dev nD) (t : Fin cfg0.N) (q : Fin 128) :
    (iblk m c 3 t : FVec Ideal S1x128 .f32) (ix2 (0 : Fin 1) q) = (m ((c : Thread nD τ).loc main_arg3) : S128.Idx → EReal) (ix1 q) := by
  obtain ⟨-, -, -, -, -, -, e0, e1, -⟩ := block_indices t
  rw [← bias_row m c q]
  unfold iblk
  rw [View.read_apply]
  show V m c main_v0 _ = _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-! ## What a point writes back -/

/-- Entry `(p, q)` of the block the body stores at point `t` is the layer's value at row `400 t + p`, column `q`. -/
theorem point_entry (c : Dev nD) (t : Fin cfg0.N) (p : Fin 400) (q : Fin 128) (r : Fin 10000) (s : Fin 128)
    (hr : r.val = 400 * t.val + p.val) (hs : s.val = q.val) :
    k0_pay1 (F := Ideal) (iblk m c 0 t) (iblk m c 1 t) (iblk m c 2 t) (iblk m c 3 t) (ix2 p q)
      = aggregateThenProject (m ((c : Thread nD τ).loc main_arg0)) (m ((c : Thread nD τ).loc main_arg1))
          (m ((c : Thread nD τ).loc main_arg2)) (m ((c : Thread nD τ).loc main_arg3)) r s := by
  obtain rfl : s = q := Fin.ext hs
  refine (payload_entry (iblk m c 0 t) (iblk m c 1 t) (iblk m c 2 t) (iblk m c 3 t) p s).trans ?_
  unfold aggregateThenProject
  rw [bias_block m c t s]
  refine congrArg (· + _) (Finset.sum_congr rfl fun d _ => ?_)
  rw [w_block m c t s d]
  refine congrArg (· * _) (Finset.sum_congr rfl fun n _ => ?_)
  rw [adj_block m c t p n r hr, x_block m c t n d]

/-- What point `t` writes back is block `t` of the layer's result. -/
theorem flushed_eq (c : Dev nD) (t : Fin cfg0.N) :
    (dats m 0 c).flushed 4 t = ((cfg0.win 4).blk t).view.read (Elt Ideal) (layer m c) := by
  obtain ⟨-, -, -, -, -, -, -, -, e0, e1⟩ := block_indices t
  rw [flushed4]
  unfold out0_4
  rw [View.canon_unit_zero zero_offsets]
  simp only [View.ld_unit_zero (S := S400x10000) zero_offsets, View.ld_unit_zero (S := S10000x128) zero_offsets,
    View.ld_unit_zero (S := S128x128) zero_offsets, View.ld_unit_zero (S := S1x128) zero_offsets]
  funext j
  obtain ⟨p, q, rfl⟩ : ∃ (p : Fin 400) (q : Fin 128), j = ix2 p q := ⟨j 0, j 1, eq_ix2 j⟩
  show k0_pay1 (F := Ideal) (iblk m c 0 t) (iblk m c 1 t) (iblk m c 2 t) (iblk m c 3 t) (ix2 p q)
    = layer m c (((cfg0.win 4).blk t).view.emb (ix2 p q))
  refine point_entry m c t p q _ _ ?_ ?_
  · show win0_4.index t (0 : Fin 2) * 400 + 1 * p.val = 400 * t.val + p.val
    rw [e0]; omega
  · show win0_4.index t (1 : Fin 2) * 128 + 1 * q.val = q.val
    rw [e1]; omega

/-! ## The blocks tile the array -/

/-- An entry of the array is in point `t`'s block iff each coordinate is in the block's range on its axis. -/
theorem mem_block (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Row `r` of the result lies in the block of point `r / 400`. -/
theorem covered (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, e0, e1⟩ := block_indices t
  have ht : t.val = (i 0).val / 400 := rfl
  refine ⟨t, flush0_4 t, ?_⟩
  rw [mem_block]
  intro a
  match a with
  | ⟨0, _⟩ => show win0_4.index t (0 : Fin 2) * 400 ≤ (i 0).val ∧ (i 0).val < win0_4.index t (0 : Fin 2) * 400 + 400; rw [e0, ht]; omega
  | ⟨1, _⟩ => show win0_4.index t (1 : Fin 2) * 128 ≤ (i 1).val ∧ (i 1).val < win0_4.index t (1 : Fin 2) * 128 + 128; rw [e1]; omega

/-! ## The result array, and the run -/

/-- After the 25 points the result array is the layer's result. -/
theorem final (c : Dev nD) : (dats m 0 c).arrAt 4 cfg0.N = layer m c :=
  (dats m 0 c).arrAt_eq_of_cover 4 (layer m c) (fun t _ => flushed_eq m c t) covered

/-- Every execution of the kernel's program ends with the result array at the layer's result in its "aggregate,
    then project" reading, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.GcnLayer.Kernel

end
-- ==== Proof.lean ====
/-
  A graph-convolution layer, `out = adj · (x · Wᵀ) + bias`, computed two ways.

  The kernel walks the 10000 rows of the adjacency matrix in 25 blocks of 400. For each block it first aggregates
  the features, `g = adj_block · x`, then projects, `g · Wᵀ`, and adds the bias: entry `(r, c)` of its result is
  `∑_d (∑ₙ adj[r, n] · x[n, d]) · W[c, d] + bias[c]`. The reference projects first, `support = x · Wᵀ`, then aggregates,
  `adj · support`, and adds the bias: `∑ₙ adj[r, n] · (∑_d x[n, d] · W[c, d]) + bias[c]`.

  These are the two bracketings of the triple product `adj · x · Wᵀ`. Over the reals they agree by distributing both
  sides into the double sum `∑ₙ ∑_d adj[r, n] · x[n, d] · W[c, d]` and exchanging the two sums. On the extended
  reals distributivity fails at the infinities, so the precondition is used: every entry of `adj`, `x` and `W` has
  absolute value below `+∞`, hence is a real number, and the real law applies under the coercion. The bias is added
  last on both sides and plays no part.

  The modules: `MatrixAssoc` states the two readings and proves the law; `FiniteEntries` reads "every entry is real"
  out of the precondition; `ReferenceValue` reads the reference's result entry by entry; `KernelBlock` reads one grid
  point's stored block entry by entry; `KernelArray` places the 25 blocks in the result array. Below, the five
  claims are assembled. Nothing is rewritten between the kernel as printed and its idealization, so that claim is
  trivial; each program's frame is its run with the value forgotten.
-/
import proofs.«126582_g7481833030311_retrytranche1_1591_13_alg».proof.Defs
import proofs.«126582_g7481833030311_retrytranche1_1591_13_alg».proof.Proof.Gen.Kernel
import proofs.«126582_g7481833030311_retrytranche1_1591_13_alg».proof.Proof.Gen.Kernel.Skeleton
import proofs.«126582_g7481833030311_retrytranche1_1591_13_alg».proof.Proof.Gen.Kernel.Launch
import proofs.«126582_g7481833030311_retrytranche1_1591_13_alg».proof.Proof.Gen.Kernel.Points
import proofs.«126582_g7481833030311_retrytranche1_1591_13_alg».proof.Proof.Gen.Kernel.Frame
import proofs.«126582_g7481833030311_retrytranche1_1591_13_alg».proof.Proof.Gen.KernelIdeal
import proofs.«126582_g7481833030311_retrytranche1_1591_13_alg».proof.Proof.Gen.KernelIdeal.Skeleton
import proofs.«126582_g7481833030311_retrytranche1_1591_13_alg».proof.Proof.Gen.KernelIdeal.Launch
import proofs.«126582_g7481833030311_retrytranche1_1591_13_alg».proof.Proof.Gen.KernelIdeal.Points
import proofs.«126582_g7481833030311_retrytranche1_1591_13_alg».proof.Proof.Gen.KernelIdeal.Frame
import proofs.«126582_g7481833030311_retrytranche1_1591_13_alg».proof.Proof.Gen.ReferenceIdeal
import proofs.«126582_g7481833030311_retrytranche1_1591_13_alg».proof.Proof.Gen.Pre_finite_inputs
import proofs.«126582_g7481833030311_retrytranche1_1591_13_alg».proof.Proof.Gen.KernelIdeal.Value
import proofs.«126582_g7481833030311_retrytranche1_1591_13_alg».proof.Proof.Gen.ReferenceIdeal.Run
import proofs.«126582_g7481833030311_retrytranche1_1591_13_alg».proof.Proof.Gen.ReferenceIdeal.Read
import proofs.«126582_g7481833030311_retrytranche1_1591_13_alg».proof.Proof.MatrixAssoc
import proofs.«126582_g7481833030311_retrytranche1_1591_13_alg».proof.Proof.FiniteEntries
import proofs.«126582_g7481833030311_retrytranche1_1591_13_alg».proof.Proof.ReferenceValue
import proofs.«126582_g7481833030311_retrytranche1_1591_13_alg».proof.Proof.KernelBlock
import proofs.«126582_g7481833030311_retrytranche1_1591_13_alg».proof.Proof.KernelArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result's value forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `x`, `adj`, `W` and `bias`, all of real entries, the kernel ends with the result array
    at "aggregate, then project" and the reference at "project, then aggregate" of the same four arrays: one array,
    by the two bracketings of the triple product. -/
theorem algebraic : Cert.algebraic_KernelIdeal_ReferenceIdeal := by
  intro m ρ m' ρ' hpre hagree
  refine ⟨fun c => Cert.GcnLayer.Kernel.layer m c, Cert.GcnLayer.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨hx, hadj, hW, -⟩ := Cert.GcnLayer.Finite.entries_real _ _ _ _ (hpre c)
  rw [h0, h1, h2, h3]
  refine (Cert.GcnLayer.Reference.result_eq _ _ _ _).trans ?_
  funext i
  exact (Cert.GcnLayer.aggregateThenProject_eq_projectThenAggregate _ _ _ _ hx hadj hW (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
